-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S2048x128 : Shape := ⟨2, ![2048, 128]⟩
abbrev S2048 : Shape := ⟨1, ![2048]⟩
abbrev S2048x1 : Shape := ⟨2, ![2048, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x128 : S2048x1.Broadcasts S2048x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x8192.size a
  hwx0_0 : ∀ i : grid0.Coords, EltTy.bits .f32 = 32 ∨ (Rect.block (s := S8192x8192) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x8192.size a
  hwx0_1 : ∀ i : grid0.Coords, EltTy.bits .f32 = 32 ∨ (Rect.block (s := S8192x8192) S2048x128.size (cc0_transform_1 i) (hinb0_1 i)).WholeWords (EltTy.packing .f32)

variable [Facts₀]

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S524288x128 : Shape := ⟨2, ![524288, 128]⟩
abbrev S_ : Shape := ⟨0, ![]⟩
abbrev S524288 : Shape := ⟨1, ![524288]⟩
abbrev S524288x1 : Shape := ⟨2, ![524288, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S524288x128, .f32⟩
  | .hbm, ⟨2, _⟩ => ⟨S_, .f32⟩
  | .hbm, ⟨3, _⟩ => ⟨S524288, .f32⟩
  | .hbm, ⟨4, _⟩ => ⟨S524288x1, .f32⟩
  | .hbm, ⟨5, _⟩ => ⟨S_, .f32⟩
  | .hbm, ⟨6, _⟩ => ⟨S524288, .f32⟩
  | .hbm, ⟨7, _⟩ => ⟨S524288x1, .f32⟩
  | .hbm, ⟨8, _⟩ => ⟨S524288x1, .f32⟩
  | .hbm, ⟨9, _⟩ => ⟨S_, .f32⟩
  | .hbm, ⟨10, _⟩ => ⟨S524288x1, .f32⟩
  | .hbm, ⟨11, _⟩ => ⟨S524288x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S524288x1, .f32⟩
  | .hbm, ⟨16, _⟩ => ⟨S524288x1, .f32⟩
  | .hbm, ⟨17, _⟩ => ⟨S_, .f32⟩
  | .hbm, ⟨18, _⟩ => ⟨S524288x1, .f32⟩
  | .hbm, ⟨19, _⟩ => ⟨S524288x1, .f32⟩
  | .hbm, ⟨20, _⟩ => ⟨S524288x1, .f32⟩
  | .hbm, ⟨21, _⟩ => ⟨S524288x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S524288x1, .f32⟩
  | .hbm, ⟨26, _⟩ => ⟨S524288x1, .f32⟩
  | .hbm, ⟨27, _⟩ => ⟨S_, .f32⟩
  | .hbm, ⟨28, _⟩ => ⟨S524288x1, .f32⟩
  | .hbm, ⟨29, _⟩ => ⟨S524288x1, .f32⟩
  | .hbm, ⟨30, _⟩ => ⟨S524288x1, .f32⟩
  | .hbm, ⟨31, _⟩ => ⟨S524288x128, .f32⟩
  | .hbm, ⟨32, _⟩ => ⟨S524288x128, .f32⟩
  | .hbm, ⟨33, _⟩ => ⟨S524288x128, .f32⟩
  | .hbm, ⟨34, _⟩ => ⟨S524288x128, .f32⟩
  | .hbm, ⟨35, _⟩ => ⟨S524288x128, .f32⟩
  | .hbm, ⟨36, _⟩ => ⟨S_, .i32⟩
  | .hbm, ⟨37, _⟩ => ⟨S_, .i32⟩
  | .hbm, ⟨38, _⟩ => ⟨S_, .f32⟩
  | .hbm, ⟨39, _⟩ => ⟨S524288x128, .f32⟩
  | .hbm, ⟨40, _⟩ => ⟨S524288x128, .f32⟩
  | .hbm, ⟨41, _⟩ => ⟨S_, .f32⟩
  | .hbm, ⟨42, _⟩ => ⟨S524288x128, .f32⟩
  | .hbm, ⟨43, _⟩ => ⟨S524288x128, .f32⟩
  | .hbm, ⟨44, _⟩ => ⟨S524288x128, .f32⟩
  | .hbm, ⟨45, _⟩ => ⟨S524288x128, .f32⟩
  | .hbm, ⟨46, _⟩ => ⟨S524288x128, .f32⟩
  | .hbm, ⟨47, _⟩ => ⟨S524288x128, .f32⟩
  | .hbm, ⟨48, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_cst_5 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_c_6 : Ref sig .tc := ⟨.hbm, 37, rfl⟩
abbrev main_call4_v0 : Ref sig .tc := ⟨.hbm, 38, rfl⟩
abbrev main_call4_v1 : Ref sig .tc := ⟨.hbm, 39, rfl⟩
abbrev main_call4_v2 : Ref sig .tc := ⟨.hbm, 40, rfl⟩
abbrev main_call4_v3 : Ref sig .tc := ⟨.hbm, 41, rfl⟩
abbrev main_call4_v4 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩

abbrev nD : Nat := 1
abbrev τ : Topo := Topo.v7x

variable {F : FTy → Type} [FloatOps F]

class Facts₀ : Prop where
  shapeCasts_S8192x8192_S524288x128 : S8192x8192.ShapeCasts S524288x128
  reducesTo_S524288x128_S524288_d1 : S524288x128.ReducesTo [1] S524288
  h_S_ : 0 < S_.numel
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x128_0_1 : S524288x1.BroadcastsInDim S524288x128 (![0, 1] : Fin 2 → Fin S524288x128.rank)
  bcast_S_S524288x128 : S_.BroadcastsInDim S524288x128 (![] : Fin 0 → Fin S524288x128.rank)
  shapeCasts_S524288x128_S8192x8192 : S524288x128.ShapeCasts S8192x8192

variable [Facts₀]

class Facts : Prop extends Facts₀ where

variable [Facts]
-- ==== Proof.GroupQuant.lean ====
/-
  Fake quantization to four bits, group by group, as exact arithmetic on the extended reals.

  A group is 128 consecutive entries of one row of the 8192 × 8192 array: the columns 128·j … 128·j + 127. For a group
  `g` let `lo g` be its least and `hi g` its greatest entry (folds of `min` from +∞ and of `max` from −∞). The group's
  step is (hi − lo) / 15 clamped into [c, 10⁴], where c is the single-precision value nearest 10⁻⁵ (kept as its bit
  pattern: both programs spell the same word, so its value is never needed). Its zero point is (−lo) / step clamped
  into [−10⁴, 10⁴] and rounded to the nearest integer, ties to even. An entry `e` of the group is then sent to

      (clamp₀¹⁵ (round (e / step) + zero) − zero) · step.

  `G x` does this to every entry of the array `x`, each with the group it lies in. Nothing here needs the entries to be
  finite: no law of arithmetic is used, only the definitions.
-/
import Idealize.ShloMosaic.PureOps.Ideal.Laws
import Idealize.ShloMosaic.Lib.ValueIdx

noncomputable section

namespace Cert.GroupQuant

open Idealize.ShloMosaic Idealize.ShloMosaic.ValueIdx

/-- The least entry of a group, from +∞. -/
def lo (g : Fin 128 → EReal) : EReal :=
  (Finset.univ : Finset (Fin 128)).fold min (Ideal.ofBits .f32 0x7F800000#32) g

/-- The greatest entry of a group, from −∞. -/
def hi (g : Fin 128 → EReal) : EReal :=
  (Finset.univ : Finset (Fin 128)).fold max (Ideal.ofBits .f32 0xFF800000#32) g

/-- The group's step: its range over fifteen, clamped below at the word nearest 10⁻⁵ and above at 10⁴. -/
def step (g : Fin 128 → EReal) : EReal :=
  min (Ideal.ofBits .f32 0x461C4000#32)
    (max (Ideal.ofBits .f32 0x3727C5AC#32) (Ideal.div (hi g - lo g) (Ideal.ofBits .f32 0x41700000#32)))

/-- The group's zero point: −lo / step clamped into [−10⁴, 10⁴], rounded to the nearest integer, ties to even. -/
def zero (g : Fin 128 → EReal) : EReal :=
  Ideal.liftRound Ideal.roundHalfEven
    (min (Ideal.ofBits .f32 0x461C4000#32) (max (Ideal.ofBits .f32 0xC61C4000#32) (Ideal.div (-(lo g)) (step g))))

/-- An entry `e` of the group `g`, quantized to the sixteen levels 0 … 15 and mapped back. -/
def fq (g : Fin 128 → EReal) (e : EReal) : EReal :=
  (min (Ideal.ofBits .f32 0x41700000#32)
      (max 0 (Ideal.liftRound Ideal.roundHalfEven (Ideal.div e (step g)) + zero g)) - zero g) * step g

/-- Lane `k` of the group that holds the entry at `i`: row `i 0`, column 128·⌊i 1 / 128⌋ + k. -/
def member (x : (⟨2, ![8192, 8192]⟩ : Shape).Idx → EReal) (i : (⟨2, ![8192, 8192]⟩ : Shape).Idx) (k : Fin 128) : EReal :=
  x (ix2 (⟨(i 0).val, idx2_lt0 i⟩ : Fin 8192)
    (⟨(i 1).val / 128 * 128 + k.val, by have h1 := idx2_lt1 i; have hk := k.isLt; omega⟩ : Fin 8192))

/-- The whole array, fake-quantized group by group. -/
def G (x : (⟨2, ![8192, 8192]⟩ : Shape).Idx → EReal) : (⟨2, ![8192, 8192]⟩ : Shape).Idx → EReal :=
  fun i => fq (member x i) (x i)

/-- The word 0x41700000 denotes fifteen, which is also what the integer 15 converts to. -/
theorem fifteen : (((15#32 : BitVec 32).toInt : ℝ) : EReal) = Ideal.ofBits .f32 0x41700000#32 := by
  have h : Ideal.ofBits .f32 0x41700000#32 = ((15 : ℝ) : EReal) := by
    simp [Ideal.ofBits, Ideal.ieee, -EReal.coe_mul]; norm_num
  have t : (15#32 : BitVec 32).toInt = 15 := by decide
  rw [h, t]; norm_num

/-- The integer 0 converts to zero. -/
theorem nought : (((0#32 : BitVec 32).toInt : ℝ) : EReal) = 0 := by norm_num

end Cert.GroupQuant

end
-- ==== Proof.LibMinReduce.lean ====
/-
  A minimum taken along ONE axis of an array of extended reals, read at a result index.

  Both programs of a kernel-against-reference pair may take such a minimum: the kernel by a
  `vector.multi_reduction <minimumf>` over one axis of a block, the reference by a one-operand
  `stablehlo.reduce` whose body is `stablehlo.minimum`. Each is defined as a fold of the two-argument minimum,
  from a starting value, over the source indices in row-major order. On the extended reals the two-argument
  minimum is `min`, which commutes and associates, so the order of the fold does not matter: at the result index
  `j` each is the fold of `min`, from the starting value, over the coordinates `k` of the dropped axis, of the
  source at `j` with `k` inserted on that axis (`Shape.Reduces.lift`). Stated so, a kernel's minimum over a
  block's rows and a reference's minimum over the whole array's rows are folds over the SAME index set `Fin n`
  and can be compared summand by summand.

  `multiReduction_minimumf_single` is the kernel's side; `hostReduce_minimumf_single` is the reference's. They
  are the counterparts for `min` of the readings of a sum and of a maximum along one axis.
-/
import Idealize.ShloMosaic.PureOps.Ideal.Laws

namespace Cert.LibMinReduce

open Idealize.ShloMosaic

variable {φ : FTy}

/-- A float `vector.multi_reduction <minimumf>` over the one axis `a`, at the exact values: at the result index
    `j` it is the fold of `min`, from the accumulator's value, over the coordinates `k` of axis `a`, of the source
    at `j` with `k` inserted. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a minimum body over the one axis `a`, at the exact values: at
    `j` it is the fold of `min`, from the initial value's one element, over the coordinates `k` of axis `a`, of the
    operand at `j` with `k` inserted. (`h'` is the shape fact the operation carries; `h`, at the same shapes, names
    the inserted index.) -/
theorem hostReduce_minimumf_single {s t u : Shape} {a : Fin s.rank} (x : FVec Ideal s φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end Cert.LibMinReduce
-- ==== Proof.KernelBlock.lean ====
/-
  One block of the kernel, read at an index.

  The body loads a 2048 × 128 block, and every row of the block is one group of 128 columns. It takes each row's least and
  greatest entry by reductions along the lanes — on the extended reals these are folds of `min` and `max`, in any order —,
  forms the row's step and zero point, and stores every entry fake-quantized with its own row's two numbers. The body
  writes 0 − lo where the specification has −lo; these are one extended real. So entry (p, q) of what the body stores is
  `GroupQuant.fq` of row p of the loaded block at its entry (p, q).
-/
import proofs.«156495_j1812476199613_1_alg».proof.Proof.KernelIdealValue
import proofs.«156495_j1812476199613_1_alg».proof.Proof.GroupQuant
import proofs.«156495_j1812476199613_1_alg».proof.Proof.LibMinReduce

noncomputable section

namespace Cert.KernelIdeal.Block

open Cert.KernelIdeal Cert.KernelIdeal.Gen Cert.KernelIdeal.ValueP Idealize.ShloMosaic
open Idealize.ShloMosaic.ValueIdx
open Cert.GroupQuant

/-- Block row `j` with lane `k` put back is the block index (j, k). -/
theorem lanes_lift (j : S2048.Idx) (k : Fin 128) :
    reduces_S2048x128_S2048.lift j k = ix2 (⟨(j 0).val, (j 0).isLt⟩ : Fin 2048) k := by
  funext d; apply Fin.ext
  match d with
  | ⟨0, _⟩ => rfl
  | ⟨1, _⟩ => rfl

/-- Row `j` of a block, as a group of 128. -/
def brow (P : Vec Ideal S2048x128 .f32) (j : S2048.Idx) : Fin 128 → EReal :=
  fun k => P (ix2 (⟨(j 0).val, (j 0).isLt⟩ : Fin 2048) k)

/-- The lane minimum of a block is each row's least entry. -/
theorem least (P : Vec Ideal S2048x128 .f32) (j : S2048.Idx) :
    multiReduction (F := Ideal) .minimumf [1] S2048 P 0x7F800000#32 reduces_S2048x128_S2048 (.inl rfl) rfl j = lo (brow P j) := by
  refine (Cert.LibMinReduce.multiReduction_minimumf_single P _ reduces_S2048x128_S2048 (.inl rfl) rfl j).trans ?_
  have hf : (P ∘ reduces_S2048x128_S2048.lift j) = brow P j := funext fun k => congrArg P (lanes_lift j k)
  rw [hf]; rfl

/-- The lane maximum of a block is each row's greatest entry. -/
theorem greatest (P : Vec Ideal S2048x128 .f32) (j : S2048.Idx) :
    multiReduction (F := Ideal) .maximumf [1] S2048 P 0xFF800000#32 reduces_S2048x128_S2048 (.inl rfl) rfl j = hi (brow P j) := by
  refine (Ideal.multiReduction_maximumf_single P _ reduces_S2048x128_S2048 (.inl rfl) rfl j).trans ?_
  have hf : (P ∘ reduces_S2048x128_S2048.lift j) = brow P j := funext fun k => congrArg P (lanes_lift j k)
  rw [hf]; rfl

/-- What the body leaves at entry `y` of a block `P`: the entry fake-quantized with its block row. -/
theorem block_eq (P : Vec Ideal S2048x128 .f32) (y : S2048x128.Idx) :
    E1 (F := Ideal) P y = fq (fun k => P (ix2 (⟨(y 0).val, (y 0).isLt⟩ : Fin 2048) k)) (P y) := by
  have hy : ix1_0 y = y := by
    funext a
    match a with
    | ⟨0, _⟩ => rfl
    | ⟨1, _⟩ => rfl
  unfold E1
  rw [least P (ix1_2 y), greatest P (ix1_1 y), hy, Ideal.ofBits_def (φ := .f32) (0x00000000#32), Ideal.ofBits_zero_f32,
    Ideal.subf_def (φ := .f32) 0 (lo (brow P (ix1_2 y))), zero_sub]
  rfl

end Cert.KernelIdeal.Block

end
-- ==== Proof.KernelWhole.lean ====
/-
  The kernel, read at an index: its output array ends at `GroupQuant.G` of its argument.

  The grid has 4 × 64 points. Point (a, b) loads the block of rows 2048·a … 2048·a + 2047 and columns 128·b … 128·b + 127,
  and writes the same block of the output, each entry fake-quantized with its block row (Proof/KernelBlock.lean).

  Entry (p, q) of the block at point (a, b) is entry (2048·a + p, 128·b + q) of the array, and lane k of its block row is
  entry (2048·a + p, 128·b + k); since q < 128, 128·⌊(128·b + q) / 128⌋ + k = 128·b + k, so the block row is the group
  `GroupQuant.member` names. The 256 blocks tile the array, so every entry of the output is written, by the point
  (⌊r / 2048⌋, ⌊c / 128⌋).
-/
import proofs.«156495_j1812476199613_1_alg».proof.Proof.KernelBlock

set_option maxRecDepth 16384

noncomputable section

namespace Cert.KernelIdeal.Whole

open Cert.KernelIdeal Cert.KernelIdeal.Gen Cert.KernelIdeal.ValueP Cert.KernelIdeal.Block Idealize.ShloMosaic Idealize.ShloMosaic.TcCoe Idealize.SL.Sem
open Idealize.ShloMosaic.ValueIdx
open Idealize.ShloMosaic.Pipeline (Dat)
open Cert.GroupQuant

variable (m : (ℓ : Loc nD τ sig) → Buf (Elt Ideal) ℓ) (ρ : Dev nD → PrngReg)

theorem origin : (![0, 0] : Fin 2 → Nat) = fun _ => 0 := funext fun a => by fin_cases a <;> rfl

/-- The grid's points are counted row by row: point `t` is block (⌊t / 64⌋, t mod 64), for the input window and the output
    window alike. -/
theorem point_block : ∀ t : Fin cfg0.N, win0_0.index t (0 : Fin 2) = win0_1.index t (0 : Fin 2)
    ∧ win0_0.index t (1 : Fin 2) = win0_1.index t (1 : Fin 2)
    ∧ win0_1.index t (0 : Fin 2) = t.val / 64 ∧ win0_1.index t (1 : Fin 2) = t.val % 64 :=
  (by decide +kernel : ∀ t : Fin grid0.N, _)

/-- There are 4 · 64 points. -/
theorem points : cfg0.N = 256 := by decide

/-- WHAT POINT `t` WRITES BACK is block `t` of the argument array fake-quantized group by group. -/
theorem flushed_eq (c : Dev nD) (t : Fin cfg0.N) :
    (dats m 0 c).flushed 1 t = ((cfg0.win 1).blk t).view.read (Elt Ideal) (G (V m c main_arg0)) := by
  rw [flushed1]
  obtain ⟨e0, e1, -, -⟩ := point_block t
  funext j
  have hj0 : (j 0).val < 2048 := (j 0).isLt
  have hj1 : (j 1).val < 128 := (j 1).isLt
  show out0_1 (iblk m c 0 t) j = G (V m c main_arg0) (((cfg0.win 1).blk t).view.emb j)
  refine (canon1_eq (View.ld (iblk m c 0 t) r0_0) j).trans ?_
  refine (congrFun (congrArg (E1 (F := Ideal)) (View.ld_unit_zero (S := S2048x128) origin _ (iblk m c 0 t))) j).trans ?_
  refine (block_eq (iblk m c 0 t) j).trans ?_
  unfold G
  have hent : iblk m c 0 t j = V m c main_arg0 (((cfg0.win 1).blk t).view.emb j) := by
    show V m c main_arg0 (((cfg0.win 0).blk t).view.emb j) = V m c main_arg0 (((cfg0.win 1).blk t).view.emb j)
    refine congrArg (V m c main_arg0) ?_
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 128 + 1 * (j 1).val = win0_1.index t (1 : Fin 2) * 128 + 1 * (j 1).val; omega
  have hrow : (fun k : Fin 128 => iblk m c 0 t (ix2 (⟨(j 0).val, (j 0).isLt⟩ : Fin 2048) k))
      = member (V m c main_arg0) (((cfg0.win 1).blk t).view.emb j) := by
    funext k
    have hk : k.val < 128 := k.isLt
    unfold member
    show V m c main_arg0 (((cfg0.win 0).blk t).view.emb (ix2 (⟨(j 0).val, (j 0).isLt⟩ : Fin 2048) k)) = _
    refine congrArg (V m c main_arg0) ?_
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 128 + 1 * k.val = (win0_1.index t (1 : Fin 2) * 128 + 1 * (j 1).val) / 128 * 128 + k.val; omega
  rw [hrow, hent]

/-- An index of the array is in point `t`'s block iff each coordinate is in the block's range on its axis. -/
theorem mem_block (t : Fin cfg0.N) (i : S8192x8192.Idx) :
    i ∈ ((cfg0.win 1).blk t).view.set ↔ ∀ a : Fin 2, win0_1.index t a * S2048x128.size a ≤ (i a).val ∧ (i a).val < win0_1.index t a * S2048x128.size a + S2048x128.size a := by
  show i ∈ ((View.whole main_v0).slice (win0_1.rect t)).set ↔ _
  rw [View.set_slice_whole, Rect.mem_set_unit]
  exact Iff.rfl

/-- Every entry of the output is in the block of the point (⌊row / 2048⌋, ⌊column / 128⌋), which is written back. -/
theorem covered (i : S8192x8192.Idx) :
    ∃ t : Fin cfg0.N, (cfg0.win 1).flush t = true ∧ i ∈ ((cfg0.win 1).blk t).view.set := by
  have hi0 : (i 0).val < 8192 := (i 0).isLt
  have hi1 : (i 1).val < 8192 := (i 1).isLt
  have hN : cfg0.N = 256 := points
  obtain ⟨t, ht⟩ : ∃ t : Fin cfg0.N, t.val = (i 0).val / 2048 * 64 + (i 1).val / 128 :=
    ⟨⟨(i 0).val / 2048 * 64 + (i 1).val / 128, by rw [hN]; omega⟩, rfl⟩
  obtain ⟨-, -, p0, p1⟩ := point_block t
  have q0 : win0_1.index t (0 : Fin 2) = (i 0).val / 2048 := by rw [p0, ht]; omega
  have q1 : win0_1.index t (1 : Fin 2) = (i 1).val / 128 := by rw [p1, ht]; omega
  refine ⟨t, flush0_1 t, ?_⟩
  rw [mem_block]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 128 ≤ (i 1).val ∧ (i 1).val < win0_1.index t (1 : Fin 2) * 128 + 128; omega

/-- THE OUTPUT ARRAY after the run is the argument array fake-quantized group by group. -/
theorem final (c : Dev nD) : (dats m 0 c).arrAt 1 cfg0.N = G (m ((c : Thread nD τ).loc main_arg0)) :=
  (dats m 0 c).arrAt_eq_of_cover 1 (G (V m c main_arg0)) (fun t _ => flushed_eq m c t) covered

/-- The kernel's run: the result at `G` of the argument, the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Whole

end
-- ==== Proof.RefValue.lean ====
/-
  The reference, read at an index: it computes `GroupQuant.G`.

  The reference reshapes the 8192 × 8192 array to 524288 rows of 128 — row-major, so row `j` of the reshaped array is
  the group of columns 128·(j mod 64) … of row ⌊j / 64⌋ —, takes each row's least and greatest entry, forms the row's
  step and zero point, fake-quantizes every entry with its row's two numbers, and reshapes back. Entry (r, c) of the
  result therefore comes from row 64·r + ⌊c / 128⌋ of the reshaped array at lane c mod 128, which is entry (r, c) of the
  argument; and that row's lane k is entry (r, 128·⌊c / 128⌋ + k): the group `GroupQuant.member` names.

  The two row reductions are folds of `min` and `max` over the 128 lanes, in any order (the extended reals' `min` and
  `max` commute and associate). The integer clamp bounds 0 and 15 convert to the same extended reals as the kernel's
  single-precision words for them. Every other operation is read at an index by the generated module.
-/
import proofs.«156495_j1812476199613_1_alg».proof.Proof.Gen.ReferenceIdeal.Read
import proofs.«156495_j1812476199613_1_alg».proof.Proof.GroupQuant
import proofs.«156495_j1812476199613_1_alg».proof.Proof.LibMinReduce

noncomputable section

namespace Cert.ReferenceIdeal.RefValue

open Cert.ReferenceIdeal Cert.ReferenceIdeal.Gen Cert.ReferenceIdeal.Read Idealize.ShloMosaic Idealize.ShloMosaic.ValueIdx
open Cert.GroupQuant

variable (x : (⟨S8192x8192, .f32⟩ : BufTy).Contents (Elt Ideal))

/-- The rows of the reshaped array are reduced along their 128 lanes. -/
theorem lanes : S524288x128.Reduces [1] S524288 := by decide

/-- Row `j` of the reshaped array with lane `k` put back is the index (j, k). -/
theorem lanes_lift (j : S524288.Idx) (k : Fin 128) :
    lanes.lift j k = ix2 (⟨(j 0).val, (j 0).isLt⟩ : Fin 524288) k := by
  funext d; apply Fin.ext
  match d with
  | ⟨0, _⟩ => rfl
  | ⟨1, _⟩ => rfl

/-- Row `j` of the reshaped array, as a group of 128. -/
def row (j : S524288.Idx) : Fin 128 → EReal :=
  fun k => val_main_v0 (F := Ideal) x (ix2 (⟨(j 0).val, (j 0).isLt⟩ : Fin 524288) k)

/-- The host's minimum over the lanes is the row's least entry. -/
theorem least (j : S524288.Idx) : val_main_v1 (F := Ideal) x j = lo (row x j) := by
  unfold val_main_v1
  refine (Cert.LibMinReduce.hostReduce_minimumf_single _ _ reducesTo_S524288x128_S524288_d1 lanes h_S_ j).trans ?_
  have hf : (val_main_v0 (F := Ideal) x ∘ lanes.lift j) = row x j :=
    funext fun k => congrArg (val_main_v0 (F := Ideal) x) (lanes_lift j k)
  rw [hf]; rfl

/-- The host's maximum over the lanes is the row's greatest entry. -/
theorem greatest (j : S524288.Idx) : val_main_v3 (F := Ideal) x j = hi (row x j) := by
  unfold val_main_v3
  refine (Host.reduce_eq_fold_single (FloatOps.maximumf (F := Ideal) (φ := .f32)) _ _
    reducesTo_S524288x128_S524288_d1 lanes h_S_ j).trans ?_
  have hf : (val_main_v0 (F := Ideal) x ∘ lanes.lift j) = row x j :=
    funext fun k => congrArg (val_main_v0 (F := Ideal) x) (lanes_lift j k)
  rw [hf]; rfl

/-- The clamped range over fifteen, at a row: the group's step. -/
theorem step_at (i : S524288x1.Idx) : val_main_v8 (F := Ideal) x i = step (row x (idx_main_v2 i)) := by
  rw [val_main_v8_apply, val_main_call0_v4_apply, val_main_call0_v3_apply, val_main_cst_3_apply,
    val_main_call0_v2_apply, val_main_call0_v1_apply, val_main_call0_v0_apply, val_main_cst_2_apply,
    val_main_v7_apply, val_main_v5_apply, val_main_v4_apply, val_main_v2_apply, val_main_v6_apply,
    val_main_cst_1_apply, greatest, least]
  rfl

/-- The clamped, rounded quotient −lo / step, at a row: the group's zero point. -/
theorem zero_at (i : S524288x1.Idx) : val_main_v12 (F := Ideal) x i = zero (row x (idx_main_v2 i)) := by
  rw [val_main_v12_apply, val_main_v11_apply, val_main_call1_v4_apply, val_main_call1_v3_apply,
    val_main_cst_5_apply, val_main_call1_v2_apply, val_main_call1_v1_apply, val_main_call1_v0_apply,
    val_main_cst_4_apply, val_main_v10_apply, val_main_v9_apply, val_main_v2_apply, step_at, least]
  rfl

/-- The integer bounds of the last clamp, converted: fifteen is the word the kernel spells, zero is zero. -/
theorem upper : FloatOps.sitofp (F := Ideal) .f32 (15#32 : BitVec 32) = Ideal.ofBits .f32 0x41700000#32 := fifteen
theorem lower : FloatOps.sitofp (F := Ideal) .f32 (0#32 : BitVec 32) = 0 := nought

/-- Every entry of the reshaped array, fake-quantized with its row's step and zero point. -/
theorem out_at (i : S524288x128.Idx) :
    val_main_v22 (F := Ideal) x i = fq (row x (idx_main_v2 (idx_main_v13 i))) (val_main_v0 (F := Ideal) x i) := by
  rw [val_main_v22_apply, val_main_v20_apply, val_main_v21_apply, val_main_v19_apply, val_main_v18_apply,
    val_main_call4_v4_apply, val_main_call4_v3_apply, val_main_c_6_apply, val_main_call4_v2_apply,
    val_main_call4_v1_apply, val_main_call4_v0_apply, val_main_c_apply, val_main_v17_apply, val_main_v15_apply,
    val_main_v16_apply, val_main_v14_apply, val_main_v13_apply, step_at, zero_at, upper, lower]
  rfl

/-- THE REFERENCE'S RESULT is the argument fake-quantized group by group. -/
theorem ref_eq : val_main_v23 (F := Ideal) x = G x := by
  funext i
  have h0 : (i 0).val < 8192 := (i 0).isLt
  have h1 : (i 1).val < 8192 := (i 1).isLt
  rw [val_main_v23_apply, out_at]
  have hrow : row x (idx_main_v2 (idx_main_v13 (idx_main_v23 i))) = member x i := by
    funext k
    have hk : k.val < 128 := k.isLt
    unfold row member
    rw [val_main_v0_apply]
    refine congrArg x ?_
    funext a; apply Fin.ext
    match a with
    | ⟨0, _⟩ =>
      show (((i 0).val * 8192 + (i 1).val) / 128 * 128 + k.val) / 8192 = (i 0).val
      omega
    | ⟨1, _⟩ =>
      show (((i 0).val * 8192 + (i 1).val) / 128 * 128 + k.val) % 8192 = (i 1).val / 128 * 128 + k.val
      omega
  have hent : val_main_v0 (F := Ideal) x (idx_main_v23 i) = x i := by
    rw [val_main_v0_apply]
    refine congrArg x ?_
    funext a; apply Fin.ext
    match a with
    | ⟨0, _⟩ =>
      show (((i 0).val * 8192 + (i 1).val) / 128 * 128 + ((i 0).val * 8192 + (i 1).val) % 128) / 8192 = (i 0).val
      omega
    | ⟨1, _⟩ =>
      show (((i 0).val * 8192 + (i 1).val) / 128 * 128 + ((i 0).val * 8192 + (i 1).val) % 128) % 8192 = (i 1).val
      omega
  rw [hrow, hent]
  rfl

end Cert.ReferenceIdeal.RefValue

end
-- ==== Proof.lean ====
/-
  Group-wise four-bit fake quantization of an 8192 × 8192 array: the kernel against its reference, over the extended reals.

  Both programs cut every row into groups of 128 consecutive columns and, for each group, take its least entry `lo` and
  greatest entry `hi`, the step  s = clamp((hi − lo) / 15, c, 10⁴)  (c the single-precision word nearest 10⁻⁵), the zero
  point  z = round(clamp(−lo / s, −10⁴, 10⁴))  (to nearest, ties to even), and send each entry e of the group to
  (clamp(round(e / s) + z, 0, 15) − z) · s.  This is `GroupQuant.G`.

  The reference reaches the groups by reshaping the array to 524288 rows of 128 and reducing along the rows
  (Proof/RefValue.lean); the kernel by walking 4 × 64 blocks of 2048 × 128, whose rows are the groups, and reducing along
  the lanes of each block (Proof/KernelWhole.lean, over the block-wise value module Proof/KernelIdealValue.lean). Each
  side is shown to end at `G` of its argument, so from agreeing arguments the results agree. The two sides spell the
  same operations in the same order with the same constants, except that the kernel writes 0 − lo for −lo and the reference
  converts the integers 0 and 15 where the kernel writes their single-precision words; no law that needs finite entries
  is used, so the precondition is not opened. The ideal pass rewrote nothing, so `preserves` asks nothing.

  The frames of the two kernel programs are the generated ones; the reference's frame is its generated run with the
  result dropped.
-/
import proofs.«156495_j1812476199613_1_alg».proof.Defs
import proofs.«156495_j1812476199613_1_alg».proof.Proof.Gen.Kernel
import proofs.«156495_j1812476199613_1_alg».proof.Proof.Gen.Kernel.Skeleton
import proofs.«156495_j1812476199613_1_alg».proof.Proof.Gen.Kernel.Launch
import proofs.«156495_j1812476199613_1_alg».proof.Proof.Gen.Kernel.Points
import proofs.«156495_j1812476199613_1_alg».proof.Proof.Gen.Kernel.Frame
import proofs.«156495_j1812476199613_1_alg».proof.Proof.Gen.KernelIdeal
import proofs.«156495_j1812476199613_1_alg».proof.Proof.Gen.KernelIdeal.Skeleton
import proofs.«156495_j1812476199613_1_alg».proof.Proof.Gen.KernelIdeal.Launch
import proofs.«156495_j1812476199613_1_alg».proof.Proof.Gen.KernelIdeal.Points
import proofs.«156495_j1812476199613_1_alg».proof.Proof.Gen.KernelIdeal.Frame
import proofs.«156495_j1812476199613_1_alg».proof.Proof.Gen.ReferenceIdeal
import proofs.«156495_j1812476199613_1_alg».proof.Proof.Gen.Pre_finite_inputs
import proofs.«156495_j1812476199613_1_alg».proof.Proof.Gen.ReferenceIdeal.Run
import proofs.«156495_j1812476199613_1_alg».proof.Proof.Gen.ReferenceIdeal.Read
import proofs.«156495_j1812476199613_1_alg».proof.Proof.KernelWhole
import proofs.«156495_j1812476199613_1_alg».proof.Proof.RefValue
import Idealize.ShloMosaic.Adequacy
import Idealize.ShloMosaic.Init

noncomputable section

namespace Cert.Proof

open Idealize.ShloMosaic Idealize.SL.Sem

/-- The kernel as printed runs, and leaves its argument as it was. -/
theorem frame_kernel : Cert.frame_Kernel :=
  fun m ρ _ => Cert.Kernel.Gen.frame m ρ

/-- So does its reading over the extended reals. -/
theorem frame_ideal : Cert.frame_KernelIdeal :=
  fun m ρ _ => Cert.KernelIdeal.Gen.frame m ρ

/-- The reference runs and leaves its argument as it was: its run, with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From agreeing arguments both programs end with the argument fake-quantized group by group. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
